-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x16384 : Shape := ⟨3, ![16, 256, 16384]⟩
abbrev S16x128 : Shape := ⟨2, ![16, 128]⟩
abbrev S768x128 : Shape := ⟨2, ![768, 128]⟩
abbrev S768 : Shape := ⟨1, ![768]⟩
abbrev S256x128 : Shape := ⟨2, ![256, 128]⟩
abbrev S256 : Shape := ⟨1, ![256]⟩
abbrev S_ : Shape := ⟨0, ![]⟩

class Facts : Prop where
  bcast_S_S16x256x16384 : S_.BroadcastsInDim S16x256x16384 (![] : Fin 0 → Fin S16x256x16384.rank)
  reducesTo_S16x256x16384_S_d0_1_2 : S16x256x16384.ReducesTo [0, 1, 2] S_
  h_S_ : 0 < S_.numel
  bcast_S_S16x128 : S_.BroadcastsInDim S16x128 (![] : Fin 0 → Fin S16x128.rank)
  reducesTo_S16x128_S_d0_1 : S16x128.ReducesTo [0, 1] S_
  bcast_S_S768x128 : S_.BroadcastsInDim S768x128 (![] : Fin 0 → Fin S768x128.rank)
  reducesTo_S768x128_S_d0_1 : S768x128.ReducesTo [0, 1] S_
  bcast_S_S768 : S_.BroadcastsInDim S768 (![] : Fin 0 → Fin S768.rank)
  reducesTo_S768_S_d0 : S768.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x128 .f32) (main_arg5 : FVec F S256 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S16x256x16384 .f32) (main_arg1 : FVec F S16x128 .f32) (main_arg2 : FVec F S768x128 .f32) (main_arg3 : FVec F S768 .f32) (main_arg4 : FVec F S256x128 .f32) (main_arg5 : FVec F S256 .f32) : IVec S_ 1 :=
  let main_v0 : FVec F S16x256x16384 .f32 := Host.absf main_arg0
  let main_cst : FVec F S_ .f32 := constant S_ .f32 0x7F800000#32
  let main_v1 : FVec F S16x256x16384 .f32 := broadcastInDim S16x256x16384 ![] bcast_S_S16x256x16384 main_cst
  let main_v2 : IVec S16x256x16384 1 := cmpf .olt main_v0 main_v1
  let main_c : IVec S_ 1 := constantI S_ 1 1#1
  let main_v3 : IVec S_ 1 := (fun x v => Host.reduce IntOp.andi x v reducesTo_S16x256x16384_S_d0_1_2 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S768x128 .f32 := Host.absf main_arg2
  let main_cst_2 : FVec F S_ .f32 := constant S_ .f32 0x7F800000#32
  let main_v10 : FVec F S768x128 .f32 := broadcastInDim S768x128 ![] bcast_S_S768x128 main_cst_2
  let main_v11 : IVec S768x128 1 := cmpf .olt main_v9 main_v10
  let main_c_3 : IVec S_ 1 := constantI S_ 1 1#1
  let main_v12 : IVec S_ 1 := (fun x v => Host.reduce IntOp.andi x v reducesTo_S768x128_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_v13 main_v16
-- ==== Kernel.lean ====
abbrev S16x256x16384 : Shape := ⟨3, ![16, 256, 16384]⟩
abbrev S16x128 : Shape := ⟨2, ![16, 128]⟩
abbrev S768x128 : Shape := ⟨2, ![768, 128]⟩
abbrev S768 : Shape := ⟨1, ![768]⟩
abbrev S256x128 : Shape := ⟨2, ![256, 128]⟩
abbrev S256 : Shape := ⟨1, ![256]⟩
abbrev S128x768 : Shape := ⟨2, ![128, 768]⟩
abbrev S16x768 : Shape := ⟨2, ![16, 768]⟩
abbrev S1x768 : Shape := ⟨2, ![1, 768]⟩
abbrev S16x256x3 : Shape := ⟨3, ![16, 256, 3]⟩
abbrev S128x256 : Shape := ⟨2, ![128, 256]⟩
abbrev S16x256 : Shape := ⟨2, ![16, 256]⟩
abbrev S1x256 : Shape := ⟨2, ![1, 256]⟩
abbrev S16x256x1 : Shape := ⟨3, ![16, 256, 1]⟩
abbrev S1x64x16384 : Shape := ⟨3, ![1, 64, 16384]⟩
abbrev S1x64x3 : Shape := ⟨3, ![1, 64, 3]⟩
abbrev S1x64x1 : Shape := ⟨3, ![1, 64, 1]⟩
abbrev S64x16384 : Shape := ⟨2, ![64, 16384]⟩
abbrev S64x3 : Shape := ⟨2, ![64, 3]⟩
abbrev S64x1 : Shape := ⟨2, ![64, 1]⟩

abbrev nBuf : Space → Nat
  | .hbm => 19
  | .vmem => 8
  | .smem => 0
  | _ => 0

abbrev bufTy : (tb : Table) → Fin (tcTables nBuf tb) → BufTy
  | .hbm, ⟨0, _⟩ => ⟨S16x256x16384, .f32⟩
  | .hbm, ⟨1, _⟩ => ⟨S16x128, .f32⟩
  | .hbm, ⟨2, _⟩ => ⟨S768x128, .f32⟩
  | .hbm, ⟨3, _⟩ => ⟨S768, .f32⟩
  | .hbm, ⟨4, _⟩ => ⟨S256x128, .f32⟩
  | .hbm, ⟨5, _⟩ => ⟨S256, .f32⟩
  | .hbm, ⟨6, _⟩ => ⟨S128x768, .f32⟩
  | .hbm, ⟨7, _⟩ => ⟨S16x768, .f32⟩
  | .hbm, ⟨8, _⟩ => ⟨S1x768, .f32⟩
  | .hbm, ⟨9, _⟩ => ⟨S16x768, .f32⟩
  | .hbm, ⟨10, _⟩ => ⟨S16x768, .f32⟩
  | .hbm, ⟨11, _⟩ => ⟨S16x256x3, .f32⟩
  | .hbm, ⟨12, _⟩ => ⟨S128x256, .f32⟩
  | .hbm, ⟨13, _⟩ => ⟨S16x256, .f32⟩
  | .hbm, ⟨14, _⟩ => ⟨S1x256, .f32⟩
  | .hbm, ⟨15, _⟩ => ⟨S16x256, .f32⟩
  | .hbm, ⟨16, _⟩ => ⟨S16x256, .f32⟩
  | .hbm, ⟨17, _⟩ => ⟨S16x256x1, .f32⟩
  | .hbm, ⟨18, _⟩ => ⟨S16x256x16384, .f32⟩
  | .local _ .vmem, ⟨0, _⟩ => ⟨S1x64x16384, .f32⟩
  | .local _ .vmem, ⟨1, _⟩ => ⟨S1x64x16384, .f32⟩
  | .local _ .vmem, ⟨2, _⟩ => ⟨S1x64x3, .f32⟩
  | .local _ .vmem, ⟨3, _⟩ => ⟨S1x64x3, .f32⟩
  | .local _ .vmem, ⟨4, _⟩ => ⟨S1x64x1, .f32⟩
  | .local _ .vmem, ⟨5, _⟩ => ⟨S1x64x1, .f32⟩
  | .local _ .vmem, ⟨6, _⟩ => ⟨S1x64x16384, .f32⟩
  | .local _ .vmem, ⟨7, _⟩ => ⟨S1x64x16384, .f32⟩
  | _, _ => ⟨S16x256x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S768x128_S128x768_1_0 : S768x128.Transposes [1, 0] S128x768
  bcast_S768_S1x768_1 : S768.BroadcastsInDim S1x768 (![1] : Fin 1 → Fin S1x768.rank)
  bcast_S1x768_S16x768_0_1 : S1x768.BroadcastsInDim S16x768 (![0, 1] : Fin 2 → Fin S16x768.rank)
  shapeCasts_S16x768_S16x256x3 : S16x768.ShapeCasts S16x256x3
  transposes_S256x128_S128x256_1_0 : S256x128.Transposes [1, 0] S128x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  shapeCasts_S16x256_S16x256x1 : S16x256.ShapeCasts S16x256x1
  inb_S1x64x16384_S1x64x16384_0_0_0 : ∀ a, (![0, 0, 0] : Fin 3 → Nat) a + S1x64x16384.size a ≤ S1x64x16384.size a
  h_S1x64x16384 : 0 < S1x64x16384.numel
  shapeCasts_S1x64x16384_S64x16384 : S1x64x16384.ShapeCasts S64x16384
  inb_S1x64x3_S1x64x3_0_0_0 : ∀ a, (![0, 0, 0] : Fin 3 → Nat) a + S1x64x3.size a ≤ S1x64x3.size a
  h_S1x64x3 : 0 < S1x64x3.numel
  shapeCasts_S1x64x3_S64x3 : S1x64x3.ShapeCasts S64x3
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  slices_S64x3_o0_0_S64x1 : S64x3.Slices ![0, 0] S64x1
  slices_S64x3_o0_1_S64x1 : S64x3.Slices ![0, 1] S64x1
  slices_S64x3_o0_2_S64x1 : S64x3.Slices ![0, 2] S64x1
  rotates_S64x16384_d1 : S64x16384.Rotates 1 none
  broadcasts_S64x1_S64x16384 : S64x1.Broadcasts S64x16384
  shapeCasts_S64x16384_S1x64x16384 : S64x16384.ShapeCasts S1x64x16384
  slices_S64x16384_o0_0_S64x1 : S64x16384.Slices ![0, 0] S64x1
  slices_S64x16384_o0_1_S64x1 : S64x16384.Slices ![0, 1] S64x1
  slices_S64x16384_o0_16382_S64x1 : S64x16384.Slices ![0, 16382] S64x1
  slices_S64x16384_o0_16383_S64x1 : S64x16384.Slices ![0, 16383] S64x1
  inb_S1x64x16384_S1x64x1_0_0_0 : ∀ a, (![0, 0, 0] : Fin 3 → Nat) a + S1x64x1.size a ≤ S1x64x16384.size a
  shapeCasts_S64x1_S1x64x1 : S64x1.ShapeCasts S1x64x1
  inb_S1x64x16384_S1x64x1_0_0_16383 : ∀ a, (![0, 0, 16383] : Fin 3 → Nat) a + S1x64x1.size a ≤ S1x64x16384.size a
  dot_S16x128_S128x768_S16x768_1_0_0_1_n_n_wf : DotDims.WF S16x128 S128x768 S16x768 [1] [0] [0] [1] [] []
  dot_S16x128_S128x256_S16x256_1_0_0_1_n_n_wf : DotDims.WF S16x128 S128x256 S16x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x16384.size a ≤ S16x256x16384.size a
  hwx0_0 : ∀ i : grid0.Coords, EltTy.bits .f32 = 32 ∨ (Rect.block (s := S16x256x16384) S1x64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x3.size a ≤ S16x256x3.size a
  hwx0_1 : ∀ i : grid0.Coords, EltTy.bits .f32 = 32 ∨ (Rect.block (s := S16x256x3) S1x64x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1.size a ≤ S16x256x1.size a
  hwx0_2 : ∀ i : grid0.Coords, EltTy.bits .f32 = 32 ∨ (Rect.block (s := S16x256x1) S1x64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x16384.size a ≤ S16x256x16384.size a
  hwx0_3 : ∀ i : grid0.Coords, EltTy.bits .f32 = 32 ∨ (Rect.block (s := S16x256x16384) S1x64x16384.size (cc0_transform_3 i) (hinb0_3 i)).WholeWords (EltTy.packing .f32)

variable [Facts₀]

def dot_S16x128_S128x768_S16x768_1_0_0_1_n_n : DotDims S16x128 S128x768 S16x768 where
  lhsContracting := [1]
  rhsContracting := [0]
  lhsNonContracting := [0]
  rhsNonContracting := [1]
  lhsBatch := []
  rhsBatch := []
  wf := dot_S16x128_S128x768_S16x768_1_0_0_1_n_n_wf
def dot_S16x128_S128x256_S16x256_1_0_0_1_n_n : DotDims S16x128 S128x256 S16x256 where
  lhsContracting := [1]
  rhsContracting := [0]
  lhsNonContracting := [0]
  rhsNonContracting := [1]
  lhsBatch := []
  rhsBatch := []
  wf := dot_S16x128_S128x256_S16x256_1_0_0_1_n_n_wf

abbrev win0_0 : Pipeline.Window sig grid0 :=
  Pipeline.Window.ofSpec (Memref.whole main_arg0) S1x64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x64x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x64x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x256x16384 : Shape := ⟨3, ![16, 256, 16384]⟩
abbrev S16x128 : Shape := ⟨2, ![16, 128]⟩
abbrev S768x128 : Shape := ⟨2, ![768, 128]⟩
abbrev S768 : Shape := ⟨1, ![768]⟩
abbrev S256x128 : Shape := ⟨2, ![256, 128]⟩
abbrev S256 : Shape := ⟨1, ![256]⟩
abbrev S128x768 : Shape := ⟨2, ![128, 768]⟩
abbrev S16x768 : Shape := ⟨2, ![16, 768]⟩
abbrev S1x768 : Shape := ⟨2, ![1, 768]⟩
abbrev S16x256x3 : Shape := ⟨3, ![16, 256, 3]⟩
abbrev S128x256 : Shape := ⟨2, ![128, 256]⟩
abbrev S16x256 : Shape := ⟨2, ![16, 256]⟩
abbrev S1x256 : Shape := ⟨2, ![1, 256]⟩
abbrev S_ : Shape := ⟨0, ![]⟩
abbrev S16x256x16386 : Shape := ⟨3, ![16, 256, 16386]⟩
abbrev S16x256x1 : Shape := ⟨3, ![16, 256, 1]⟩

abbrev nBuf : Space → Nat
  | .hbm => 37
  | .vmem => 0
  | .smem => 0
  | _ => 0

abbrev bufTy : (tb : Table) → Fin (tcTables nBuf tb) → BufTy
  | .hbm, ⟨0, _⟩ => ⟨S16x256x16384, .f32⟩
  | .hbm, ⟨1, _⟩ => ⟨S16x128, .f32⟩
  | .hbm, ⟨2, _⟩ => ⟨S768x128, .f32⟩
  | .hbm, ⟨3, _⟩ => ⟨S768, .f32⟩
  | .hbm, ⟨4, _⟩ => ⟨S256x128, .f32⟩
  | .hbm, ⟨5, _⟩ => ⟨S256, .f32⟩
  | .hbm, ⟨6, _⟩ => ⟨S128x768, .f32⟩
  | .hbm, ⟨7, _⟩ => ⟨S16x768, .f32⟩
  | .hbm, ⟨8, _⟩ => ⟨S1x768, .f32⟩
  | .hbm, ⟨9, _⟩ => ⟨S16x768, .f32⟩
  | .hbm, ⟨10, _⟩ => ⟨S16x768, .f32⟩
  | .hbm, ⟨11, _⟩ => ⟨S16x256x3, .f32⟩
  | .hbm, ⟨12, _⟩ => ⟨S128x256, .f32⟩
  | .hbm, ⟨13, _⟩ => ⟨S16x256, .f32⟩
  | .hbm, ⟨14, _⟩ => ⟨S1x256, .f32⟩
  | .hbm, ⟨15, _⟩ => ⟨S16x256, .f32⟩
  | .hbm, ⟨16, _⟩ => ⟨S16x256, .f32⟩
  | .hbm, ⟨17, _⟩ => ⟨S_, .i32⟩
  | .hbm, ⟨18, _⟩ => ⟨S_, .f32⟩
  | .hbm, ⟨19, _⟩ => ⟨S16x256x16386, .f32⟩
  | .hbm, ⟨20, _⟩ => ⟨S16x256x1, .f32⟩
  | .hbm, ⟨21, _⟩ => ⟨S16x256x1, .f32⟩
  | .hbm, ⟨22, _⟩ => ⟨S16x256x16384, .f32⟩
  | .hbm, ⟨23, _⟩ => ⟨S16x256x16384, .f32⟩
  | .hbm, ⟨24, _⟩ => ⟨S16x256x16384, .f32⟩
  | .hbm, ⟨25, _⟩ => ⟨S16x256x16384, .f32⟩
  | .hbm, ⟨26, _⟩ => ⟨S16x256x16384, .f32⟩
  | .hbm, ⟨27, _⟩ => ⟨S16x256x1, .f32⟩
  | .hbm, ⟨28, _⟩ => ⟨S16x256x16384, .f32⟩
  | .hbm, ⟨29, _⟩ => ⟨S16x256x16384, .f32⟩
  | .hbm, ⟨30, _⟩ => ⟨S16x256x16384, .f32⟩
  | .hbm, ⟨31, _⟩ => ⟨S16x256x16384, .f32⟩
  | .hbm, ⟨32, _⟩ => ⟨S16x256x1, .f32⟩
  | .hbm, ⟨33, _⟩ => ⟨S16x256x16384, .f32⟩
  | .hbm, ⟨34, _⟩ => ⟨S16x256x16384, .f32⟩
  | .hbm, ⟨35, _⟩ => ⟨S16x256x16384, .f32⟩
  | .hbm, ⟨36, _⟩ => ⟨S16x256x16384, .f32⟩
  | _, _ => ⟨S16x256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]

class Facts₀ : Prop where
  transposes_S768x128_S128x768_1_0 : S768x128.Transposes [1, 0] S128x768
  bcast_S768_S1x768_1 : S768.BroadcastsInDim S1x768 (![1] : Fin 1 → Fin S1x768.rank)
  bcast_S1x768_S16x768_0_1 : S1x768.BroadcastsInDim S16x768 (![0, 1] : Fin 2 → Fin S16x768.rank)
  shapeCasts_S16x768_S16x256x3 : S16x768.ShapeCasts S16x256x3
  transposes_S256x128_S128x256_1_0 : S256x128.Transposes [1, 0] S128x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  pads_S16x256x16384_S16x256x16386_000_000_110 : S16x256x16384.Pads (![0, 0, 1] : Fin 3 → Nat) ![0, 0, 1] ![0, 0, 0] S16x256x16386
  h_S_ : 0 < S_.numel
  bcast_S16x256_S16x256x1_0_1 : S16x256.BroadcastsInDim S16x256x1 (![0, 1] : Fin 2 → Fin S16x256x1.rank)
  slices_S16x256x3_S16x256x1_0_0_0 : S16x256x3.Slices ![0, 0, 0] S16x256x1
  slices_S16x256x16386_S16x256x16384_0_0_0 : S16x256x16386.Slices ![0, 0, 0] S16x256x16384
  bcast_S16x256x1_S16x256x16384_0_1_2 : S16x256x1.BroadcastsInDim S16x256x16384 (![0, 1, 2] : Fin 3 → Fin S16x256x16384.rank)
  slices_S16x256x3_S16x256x1_0_0_1 : S16x256x3.Slices ![0, 0, 1] S16x256x1
  slices_S16x256x16386_S16x256x16384_0_0_1 : S16x256x16386.Slices ![0, 0, 1] S16x256x16384
  slices_S16x256x3_S16x256x1_0_0_2 : S16x256x3.Slices ![0, 0, 2] S16x256x1
  slices_S16x256x16386_S16x256x16384_0_0_2 : S16x256x16386.Slices ![0, 0, 2] S16x256x16384
  dot_S16x128_S128x768_S16x768_1_0_0_1_n_n_wf : DotDims.WF S16x128 S128x768 S16x768 [1] [0] [0] [1] [] []
  dot_S16x128_S128x256_S16x256_1_0_0_1_n_n_wf : DotDims.WF S16x128 S128x256 S16x256 [1] [0] [0] [1] [] []

variable [Facts₀]

def dot_S16x128_S128x768_S16x768_1_0_0_1_n_n : DotDims S16x128 S128x768 S16x768 where
  lhsContracting := [1]
  rhsContracting := [0]
  lhsNonContracting := [0]
  rhsNonContracting := [1]
  lhsBatch := []
  rhsBatch := []
  wf := dot_S16x128_S128x768_S16x768_1_0_0_1_n_n_wf
def dot_S16x128_S128x256_S16x256_1_0_0_1_n_n : DotDims S16x128 S128x256 S16x256 where
  lhsContracting := [1]
  rhsContracting := [0]
  lhsNonContracting := [0]
  rhsNonContracting := [1]
  lhsBatch := []
  rhsBatch := []
  wf := dot_S16x128_S128x256_S16x256_1_0_0_1_n_n_wf

class Facts : Prop extends Facts₀ where

variable [Facts]
-- ==== Proof.ConvSpec.lean ====
/-
  The mathematics of this certificate, with no program in sight.

  A depthwise three-tap convolution along the last axis of an array `h` of shape [16, 256, 16384], with a separate
  triple of taps `w s f ·` and a bias `b s f` for every row `(s, f)`:

      out s f l = ((b s f + w s f 0 * h s f (l-1)) + w s f 1 * h s f l) + w s f 2 * h s f (l+1),

  where a neighbour that falls off either end of the row counts as zero.  On the extended reals a product with zero is
  zero and adding zero changes nothing, whatever the other factor, so at the two ends of a row the formula loses one
  summand:

      out s f 0     = (b s f + w s f 1 * h s f 0) + w s f 2 * h s f 1
      out s f 16383 = (b s f + w s f 0 * h s f 16382) + w s f 1 * h s f 16383.

  `convOut` is that function, written with the two ends as separate cases and, in the interior, with the neighbours
  taken around the end of the row (`prv`, `nxt`): in the interior nothing wraps, and the wrapped form is the one a
  rotation of the row produces.  `blockOut` is the same function on one block of 64 rows.
-/
import Idealize.ShloMosaic.Lib.ValueIdx
import Idealize.ShloMosaic.PureOps.Ideal

noncomputable section

namespace Cert.Conv

open Idealize.ShloMosaic Idealize.ShloMosaic.ValueIdx

/-- The lane before `l`, the last lane for `l = 0`. -/
def prv (l : Fin 16384) : Fin 16384 := ⟨(l.val + 16383) % 16384, Nat.mod_lt _ (by decide)⟩

/-- The lane after `l`, the first lane for `l = 16383`. -/
def nxt (l : Fin 16384) : Fin 16384 := ⟨(l.val + 1) % 16384, Nat.mod_lt _ (by decide)⟩

theorem prv_val (l : Fin 16384) : (prv l).val = (l.val + 16383) % 16384 := rfl
theorem nxt_val (l : Fin 16384) : (nxt l).val = (l.val + 1) % 16384 := rfl

/-- The last lane and the three lanes the two end formulas name. -/
abbrev l0 : Fin 16384 := ⟨0, by decide⟩
abbrev l1 : Fin 16384 := ⟨1, by decide⟩
abbrev lY : Fin 16384 := ⟨16382, by decide⟩
abbrev lZ : Fin 16384 := ⟨16383, by decide⟩

/-- The three taps. -/
abbrev k0 : Fin 3 := ⟨0, by decide⟩
abbrev k1 : Fin 3 := ⟨1, by decide⟩
abbrev k2 : Fin 3 := ⟨2, by decide⟩

/-- One row's result at lane `l` from the row's bias `b`, its taps `w` and its entries `h`. -/
def rowOut (b : EReal) (w : Fin 3 → EReal) (h : Fin 16384 → EReal) (l : Fin 16384) : EReal :=
  if l.val = 16383 then (b + w k0 * h lY) + w k1 * h lZ
  else if l.val = 0 then (b + w k1 * h l0) + w k2 * h l1
  else ((b + w k0 * h (prv l)) + w k1 * h l) + w k2 * h (nxt l)

/-- The whole result: row `(s, f)` of the output is `rowOut` of row `(s, f)` of the three arrays. -/
def convOut (h : (⟨3, ![16, 256, 16384]⟩ : Shape).Idx → EReal) (w : (⟨3, ![16, 256, 3]⟩ : Shape).Idx → EReal)
    (b : (⟨3, ![16, 256, 1]⟩ : Shape).Idx → EReal) : (⟨3, ![16, 256, 16384]⟩ : Shape).Idx → EReal :=
  fun j => rowOut (b (ix3 (j 0) (j 1) (0 : Fin 1))) (fun k => w (ix3 (j 0) (j 1) k)) (fun l => h (ix3 (j 0) (j 1) l)) (j 2)

/-- The same on one block of 64 rows. -/
def blockOut (h : (⟨3, ![1, 64, 16384]⟩ : Shape).Idx → EReal) (w : (⟨3, ![1, 64, 3]⟩ : Shape).Idx → EReal)
    (b : (⟨3, ![1, 64, 1]⟩ : Shape).Idx → EReal) : (⟨3, ![1, 64, 16384]⟩ : Shape).Idx → EReal :=
  fun y => rowOut (b (ix3 (0 : Fin 1) (y 1) (0 : Fin 1))) (fun k => w (ix3 (0 : Fin 1) (y 1) k)) (fun l => h (ix3 (0 : Fin 1) (y 1) l)) (y 2)

/-- The formula with zero-padded neighbours, as a host program computes it: `hp` is the row with one zero put in
    front and one behind, so that `hp (l + k)` is the row's entry `l + k - 1`.  It is `rowOut`: at an end the
    missing neighbour's summand is a product with zero. -/
theorem padded_eq_rowOut (b : EReal) (w : Fin 3 → EReal) (h : Fin 16384 → EReal) (l : Fin 16384)
    (p0 p1 p2 : EReal)
    (h0 : p0 = if l.val = 0 then 0 else h (prv l)) (h1 : p1 = h l) (h2 : p2 = if l.val = 16383 then 0 else h (nxt l)) :
    ((b + w k0 * p0) + w k1 * p1) + w k2 * p2 = rowOut b w h l := by
  subst h0 h1 h2
  unfold rowOut
  by_cases hZ : l.val = 16383
  · have hne : ¬ l.val = 0 := by omega
    have hp : prv l = lY := Fin.ext (by rw [prv_val, hZ])
    have hl : l = lZ := Fin.ext hZ
    rw [if_pos hZ, if_pos hZ, if_neg hne, hp, mul_zero, add_zero, hl]
  · rw [if_neg hZ, if_neg hZ]
    by_cases h0 : l.val = 0
    · have hn : nxt l = l1 := Fin.ext (by rw [nxt_val, h0])
      have hl : l = l0 := Fin.ext h0
      rw [if_pos h0, if_pos h0, mul_zero, add_zero, hn, hl]
    · rw [if_neg h0, if_neg h0]

end Cert.Conv

end
-- ==== Proof.ConvLayout.lean ====
/-
  Three layout operations on a block of 64 rows, read at an index: a column spread over all lanes, and a row rotated
  by one lane in either direction.  Rotating a row of 16384 lanes by 1 puts lane `l - 1` (around the end) at lane
  `l`; rotating it by 16383 puts lane `l + 1` (around the end) there.
-/
import Idealize.ShloMosaic.Lib.KernelVsHost
import Idealize.ShloMosaic.Lib.Pipeline.Value
import Idealize.ShloMosaic.Lib.ValueIdx
import proofs.«426347_j66236985639121_4_alg».proof.Proof.ConvSpec

namespace Cert.Conv

open Idealize.ShloMosaic Idealize.ShloMosaic.ValueIdx

variable {α : Type}

/-- A column of 64 entries spread over 16384 lanes reads, at `(r, l)`, the column's entry `r`. -/
theorem spread_apply (x : (⟨2, ![64, 1]⟩ : Shape).Idx → α) (h : (⟨2, ![64, 1]⟩ : Shape).Broadcasts ⟨2, ![64, 16384]⟩)
    (r : Fin 64) (l : Fin 16384) :
    broadcastTo ⟨2, ![64, 16384]⟩ x h (ix2 r l) = x (ix2 r (0 : Fin 1)) :=
  broadcastTo_apply x h (ix2 r l) (ix2 r (0 : Fin 1)) (fun a => by
    match a with
    | ⟨0, _⟩ => rfl
    | ⟨1, _⟩ => rfl)

/-- A block rotated along its lanes by 1 reads, at `(r, l)`, the block at `(r, prv l)`. -/
theorem rotate_one_apply (x : (⟨2, ![64, 16384]⟩ : Shape).Idx → α) (h : (⟨2, ![64, 16384]⟩ : Shape).Rotates 1 none)
    (r : Fin 64) (l : Fin 16384) :
    dynamicRotate 1 1#32 none x h (ix2 r l) = x (ix2 r (prv l)) :=
  dynamicRotate_apply (1 : Fin 2) 1#32 x h (ix2 r l) (ix2 r (prv l)) (fun b => by
    match b with
    | ⟨0, _⟩ => rfl
    | ⟨1, _⟩ =>
      show (l.val + 16383) % 16384 = (l.val + 16384 - 1 % 16384) % 16384
      omega)

/-- A block rotated along its lanes by 16383 reads, at `(r, l)`, the block at `(r, nxt l)`. -/
theorem rotate_last_apply (x : (⟨2, ![64, 16384]⟩ : Shape).Idx → α) (h : (⟨2, ![64, 16384]⟩ : Shape).Rotates 1 none)
    (r : Fin 64) (l : Fin 16384) :
    dynamicRotate 1 16383#32 none x h (ix2 r l) = x (ix2 r (nxt l)) :=
  dynamicRotate_apply (1 : Fin 2) 16383#32 x h (ix2 r l) (ix2 r (nxt l)) (fun b => by
    match b with
    | ⟨0, _⟩ => rfl
    | ⟨1, _⟩ =>
      show (l.val + 1) % 16384 = (l.val + 16384 - 16383 % 16384) % 16384
      omega)

end Cert.Conv
-- ==== Proof.ConvPayload.lean ====
/-
  The values the kernel's body stores, read at an index of the block.

  The body reads a block `h` of 64 rows and 16384 lanes, a block `w` of 64 rows of three taps, and a column `b` of 64
  biases.  It stores three things into its output block: the whole block, computed from `h` rotated by one lane in
  either direction (so that the two end lanes of every row hold a wrapped neighbour); then lane 0 of every row, and lane
  16383 of every row, each recomputed without the neighbour that is not there.
-/
import proofs.«426347_j66236985639121_4_alg».proof.Proof.Gen.KernelIdeal.Skeleton
import proofs.«426347_j66236985639121_4_alg».proof.Proof.ConvLayout
import Idealize.ShloMosaic.Lib.ValueLayout

noncomputable section

namespace Cert.Conv

open Idealize.ShloMosaic Idealize.ShloMosaic.ValueIdx
open Cert.KernelIdeal Cert.KernelIdeal.Gen Cert.KernelIdeal.Facts₀

/-- The block of 64 rows as a matrix: entry `(r, l)` is the block's `(0, r, l)`. -/
theorem rows_apply (v0 : Vec Ideal S1x64x16384 .f32) (r : Fin 64) (l : Fin 16384) :
    k0_pay2 (F := Ideal) v0 (ix2 r l) = v0 (ix3 (0 : Fin 1) r l) :=
  shapeCast_1ab_ab_apply _ _ r l

/-- The taps as a matrix. -/
theorem taps_apply (v2 : Vec Ideal S1x64x3 .f32) (r : Fin 64) (k : Fin 3) :
    k0_pay3 (F := Ideal) v2 (ix2 r k) = v2 (ix3 (0 : Fin 1) r k) :=
  shapeCast_1ab_ab_apply _ _ r k

/-- The biases as a column. -/
theorem bias_apply (v4 : Vec Ideal S1x64x1 .f32) (r : Fin 64) (z : Fin 1) :
    k0_pay4 (F := Ideal) v4 (ix2 r z) = v4 (ix3 (0 : Fin 1) r z) :=
  shapeCast_1ab_ab_apply _ _ r z

/-- Tap 0 as a column. -/
theorem tap0_apply (v2 : Vec Ideal S1x64x3 .f32) (r : Fin 64) (z : Fin 1) :
    k0_pay5 (F := Ideal) v2 (ix2 r z) = v2 (ix3 (0 : Fin 1) r k0) := by
  unfold k0_pay5
  exact (slice2_axis1_apply 0 _ _ r z k0 (by have := z.isLt; show 0 = 0 + z.val; omega)).trans (taps_apply v2 r k0)

/-- Tap 1 as a column. -/
theorem tap1_apply (v2 : Vec Ideal S1x64x3 .f32) (r : Fin 64) (z : Fin 1) :
    k0_pay6 (F := Ideal) v2 (ix2 r z) = v2 (ix3 (0 : Fin 1) r k1) := by
  unfold k0_pay6
  exact (slice2_axis1_apply 1 _ _ r z k1 (by have := z.isLt; show 1 = 1 + z.val; omega)).trans (taps_apply v2 r k1)

/-- Tap 2 as a column. -/
theorem tap2_apply (v2 : Vec Ideal S1x64x3 .f32) (r : Fin 64) (z : Fin 1) :
    k0_pay7 (F := Ideal) v2 (ix2 r z) = v2 (ix3 (0 : Fin 1) r k2) := by
  unfold k0_pay7
  exact (slice2_axis1_apply 2 _ _ r z k2 (by have := z.isLt; show 2 = 2 + z.val; omega)).trans (taps_apply v2 r k2)

/-- A lane of the block as a column. -/
theorem lane_apply (v0 : Vec Ideal S1x64x16384 .f32) (o : Nat) (ho : o < 16384)
    (h : S64x16384.Slices ![0, o] S64x1) (r : Fin 64) (z : Fin 1) :
    extractStridedSlice S64x1 ![0, o] (k0_pay2 (F := Ideal) v0) h (ix2 r z) = v0 (ix3 (0 : Fin 1) r ⟨o, ho⟩) :=
  (slice2_axis1_apply o _ h r z ⟨o, ho⟩ (by have := z.isLt; show o = o + z.val; omega)).trans (rows_apply v0 r ⟨o, ho⟩)

/-- The whole-block store: every lane from its two neighbours around the end of the row. -/
theorem whole_apply (v0 : Vec Ideal S1x64x16384 .f32) (v2 : Vec Ideal S1x64x3 .f32) (v4 : Vec Ideal S1x64x1 .f32)
    (u : Fin 1) (r : Fin 64) (l : Fin 16384) :
    k0_pay8 (F := Ideal) v0 v2 v4 (ix3 u r l)
      = ((v4 (ix3 (0 : Fin 1) r (0 : Fin 1)) + v2 (ix3 (0 : Fin 1) r k0) * v0 (ix3 (0 : Fin 1) r (prv l)))
          + v2 (ix3 (0 : Fin 1) r k1) * v0 (ix3 (0 : Fin 1) r l))
        + v2 (ix3 (0 : Fin 1) r k2) * v0 (ix3 (0 : Fin 1) r (nxt l)) := by
  unfold k0_pay8
  refine (shapeCast_ab_1ab_apply _ _ u r l).trans ?_
  simp only [addf_apply, mulf_apply]
  rw [spread_apply, spread_apply, spread_apply, spread_apply, rotate_one_apply, rotate_last_apply,
    bias_apply, tap0_apply, tap1_apply, tap2_apply, rows_apply, rows_apply, rows_apply]

/-- The store of lane 0: no neighbour in front. -/
theorem first_apply (v0 : Vec Ideal S1x64x16384 .f32) (v2 : Vec Ideal S1x64x3 .f32) (v4 : Vec Ideal S1x64x1 .f32)
    (u : Fin 1) (r : Fin 64) (z : Fin 1) :
    k0_pay9 (F := Ideal) v0 v2 v4 (ix3 u r z)
      = (v4 (ix3 (0 : Fin 1) r (0 : Fin 1)) + v2 (ix3 (0 : Fin 1) r k1) * v0 (ix3 (0 : Fin 1) r l0))
        + v2 (ix3 (0 : Fin 1) r k2) * v0 (ix3 (0 : Fin 1) r l1) := by
  unfold k0_pay9
  refine (shapeCast_ab_1ab_apply _ _ u r z).trans ?_
  simp only [addf_apply, mulf_apply]
  rw [bias_apply, tap1_apply, tap2_apply, lane_apply v0 0 (by decide), lane_apply v0 1 (by decide)]
  have hz : z = (0 : Fin 1) := Subsingleton.elim _ _
  rw [hz]

/-- The store of lane 16383: no neighbour behind. -/
theorem last_apply (v0 : Vec Ideal S1x64x16384 .f32) (v2 : Vec Ideal S1x64x3 .f32) (v4 : Vec Ideal S1x64x1 .f32)
    (u : Fin 1) (r : Fin 64) (z : Fin 1) :
    k0_pay1 (F := Ideal) (k0_pay10 (F := Ideal) v0 v2 v4) (ix3 u r z)
      = (v4 (ix3 (0 : Fin 1) r (0 : Fin 1)) + v2 (ix3 (0 : Fin 1) r k0) * v0 (ix3 (0 : Fin 1) r lY))
        + v2 (ix3 (0 : Fin 1) r k1) * v0 (ix3 (0 : Fin 1) r lZ) := by
  unfold k0_pay1 k0_pay10
  refine (shapeCast_ab_1ab_apply _ _ u r z).trans ?_
  simp only [addf_apply, mulf_apply]
  rw [bias_apply, tap0_apply, tap1_apply, lane_apply v0 16382 (by decide), lane_apply v0 16383 (by decide)]
  have hz : z = (0 : Fin 1) := Subsingleton.elim _ _
  rw [hz]

end Cert.Conv

end
-- ==== Proof.ConvBlock.lean ====
/-
  What one grid point leaves in its output block.

  The body's three stores overlap: the whole block first, then lane 0 of every row, then lane 16383 of every row.  A
  later store hides an earlier one, so lane 16383 holds the third store's value, lane 0 the second's, and every other
  lane the first's.  At lanes 1 .. 16382 the rotated neighbours of the first store are the true neighbours; the two end
  lanes, where the rotation wrapped, are exactly the ones overwritten.  So the block is `blockOut` of the three input
  blocks.
-/
import proofs.«426347_j66236985639121_4_alg».proof.Proof.Gen.KernelIdeal.Frame
import proofs.«426347_j66236985639121_4_alg».proof.Proof.ConvPayload
import Idealize.ShloMosaic.Lib.WritesUnit

noncomputable section

namespace Cert.Conv

open Idealize.ShloMosaic Idealize.ShloMosaic.TcCoe Idealize.ShloMosaic.Tactic Idealize.ShloMosaic.ValueIdx
open Idealize.SL Idealize.SL.Sem
open Cert.KernelIdeal Cert.KernelIdeal.Gen

theorem zero_offsets : (![0, 0, 0] : Fin 3 → Nat) = fun _ => 0 := funext fun a => by fin_cases a <;> rfl

/-- The output block after the body, from the three input blocks. -/
theorem block_eq (c : Dev nD) (i : grid0.Coords) (arg2 : Memref sig .tc .vmem S1x64x16384 .f32) (harg2 : arg2.IsWhole)
    (arg3 : Memref sig .tc .vmem S1x64x3 .f32) (harg3 : arg3.IsWhole) (arg4 : Memref sig .tc .vmem S1x64x1 .f32) (harg4 : arg4.IsWhole)
    (arg5 : Memref sig .tc .vmem S1x64x16384 .f32) (harg5 : arg5.IsWhole)
    (x0 : Vec Ideal S1x64x16384 .f32) (x1 : Vec Ideal S1x64x3 .f32) (x2 : Vec Ideal S1x64x1 .f32) :
    out0_A_3 (F := Ideal) c i arg2 harg2 arg3 harg3 arg4 harg4 arg5 harg5 x0 x1 x2 = blockOut x0 x1 x2 := by
  unfold out0_A_3
  unfold kernelRun0_A
  dsimp only
  sl_unfold_words
  simp only [View.readAt_eq_ld, harg2.read_unread, harg3.read_unread, harg4.read_unread,
    View.ld_unit_zero (S := S1x64x16384) zero_offsets, View.ld_unit_zero (S := S1x64x3) zero_offsets,
    View.ld_unit_zero (S := S1x64x1) zero_offsets]
  funext y
  obtain ⟨u, r, l, rfl⟩ : ∃ (u : Fin 1) (r : Fin 64) (l : Fin 16384), y = ix3 u r l := ⟨y 0, y 1, y 2, eq_ix3 y⟩
  have hu : u.val < 1 := u.isLt
  have hB : blockOut x0 x1 x2 (ix3 u r l)
      = rowOut (x2 (ix3 (0 : Fin 1) r (0 : Fin 1))) (fun k => x1 (ix3 (0 : Fin 1) r k)) (fun q => x0 (ix3 (0 : Fin 1) r q)) l := rfl
  rw [hB]
  unfold rowOut
  by_cases hZ : l.val = 16383
  · rw [if_pos hZ]
    refine (View.read_writes_cons_unit_of_mem VO0_3 VO0_3.junk _ _ _ (ix3 u r l) (ix3 (0 : Fin 1) r (0 : Fin 1)) rfl
      (fun a => ?_)).trans (last_apply x0 x1 x2 (0 : Fin 1) r (0 : Fin 1))
    match a with
    | ⟨0, _⟩ => show u.val = 0 + 0; omega
    | ⟨1, _⟩ => show r.val = 0 + r.val; omega
    | ⟨2, _⟩ => show l.val = 16383 + 0; omega
  · rw [if_neg hZ]
    have hlt : l.val < 16384 := l.isLt
    refine (View.read_writes_cons_unit_of_not_mem VO0_3 VO0_3.junk _ _ _ (ix3 u r l) rfl (2 : Fin 3)
      (Or.inl (show l.val < 16383 by omega))).trans ?_
    by_cases h0 : l.val = 0
    · rw [if_pos h0]
      refine (View.read_writes_cons_unit_of_mem VO0_3 VO0_3.junk _ _ _ (ix3 u r l) (ix3 (0 : Fin 1) r (0 : Fin 1)) rfl
        (fun a => ?_)).trans (first_apply x0 x1 x2 (0 : Fin 1) r (0 : Fin 1))
      match a with
      | ⟨0, _⟩ => show u.val = 0 + 0; omega
      | ⟨1, _⟩ => show r.val = 0 + r.val; omega
      | ⟨2, _⟩ => show l.val = 0 + 0; omega
    · rw [if_neg h0]
      refine (View.read_writes_cons_unit_of_not_mem VO0_3 VO0_3.junk _ _ _ (ix3 u r l) rfl (2 : Fin 3)
        (Or.inr (show 0 + 1 ≤ l.val by omega))).trans ?_
      refine (View.read_writes_cons_unit_of_mem VO0_3 VO0_3.junk _ _ _ (ix3 u r l) (ix3 u r l) rfl
        (fun a => ?_)).trans (whole_apply x0 x1 x2 u r l)
      match a with
      | ⟨0, _⟩ => show u.val = 0 + u.val; omega
      | ⟨1, _⟩ => show r.val = 0 + r.val; omega
      | ⟨2, _⟩ => show l.val = 0 + l.val; omega

end Cert.Conv

end
-- ==== Proof.ConvArray.lean ====
/-
  From blocks to the array.

  The grid has 16 x 4 points; point `(s, q)` works on rows `64 q .. 64 q + 63` of sample `s`: it reads that block of
  `h`, of the taps and of the bias column, and writes that block of the output.  Every window has the same block index
  `(s, q, 0)`, the blocks tile the arrays, and a row's result depends on that row only, so the block a point writes is
  the block of `convOut` of the whole arrays, and the 64 blocks fill the output.
-/
import proofs.«426347_j66236985639121_4_alg».proof.Proof.Gen.KernelIdeal.Value
import proofs.«426347_j66236985639121_4_alg».proof.Proof.ConvBlock

noncomputable section

namespace Cert.Conv

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- `rowOut` of equal data is equal. -/
theorem rowOut_congr {b b' : EReal} {w w' : Fin 3 → EReal} {h h' : Fin 16384 → EReal} {l l' : Fin 16384}
    (hb : b = b') (hw : ∀ k, w k = w' k) (hh : ∀ q, h q = h' q) (hl : l = l') : rowOut b w h l = rowOut b' w' h' l' := by
  subst hb hl
  have ew : w = w' := funext hw
  have eh : h = h' := funext hh
  rw [ew, eh]

/-- The four windows move together: at every point each input's block index is the output's, sample by sample and
    row block by row block, and nothing is cut along the lanes. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = win0_3.index t (1 : Fin 3)
    ∧ win0_1.index t (2 : Fin 3) = 0
    ∧ win0_2.index t (0 : Fin 3) = win0_3.index t (0 : Fin 3) ∧ win0_2.index t (1 : Fin 3) = win0_3.index t (1 : Fin 3)
    ∧ win0_2.index t (2 : Fin 3) = 0
    ∧ win0_3.index t (2 : Fin 3) = 0 :=
  (by decide +kernel : ∀ t : Fin grid0.N, _)

/-- Every block of the output is some point's. -/
theorem idx_onto : ∀ (q0 : Fin 16) (q1 : Fin 4), ∃ t : Fin cfg0.N, win0_3.index t = ![q0.val, q1.val, 0] :=
  (by decide +kernel : ∀ (q0 : Fin 16) (q1 : Fin 4), ∃ t : Fin grid0.N, win0_3.index t = ![q0.val, q1.val, 0])

/-- What point `t` writes back is block `t` of the convolution of the arrays as the region finds them. -/
theorem flushed_eq (c : Dev nD) (t : Fin cfg0.N) :
    (dats m 0 c).flushed 3 t
      = ((cfg0.win 3).blk t).view.read (Elt Ideal) (convOut (V m c main_arg0) (V m c main_v5) (V m c main_v11)) := by
  rw [Cert.KernelIdeal.Value.flushed3_A, block_eq]
  obtain ⟨a00, a01, a02, a10, a11, a12, a20, a21, a22, a32⟩ := idx_facts t
  funext y
  show blockOut (iblk m c 0 t) (iblk m c 1 t) (iblk m c 2 t) y
    = convOut (V m c main_arg0) (V m c main_v5) (V m c main_v11) (((cfg0.win 3).blk t).view.emb y)
  unfold blockOut convOut
  have hy0 : (y 0).val < 1 := (y 0).isLt
  have hy1 : (y 1).val < 64 := (y 1).isLt
  have hy2 : (y 2).val < 16384 := (y 2).isLt
  refine rowOut_congr ?_ (fun k => ?_) (fun q => ?_) ?_
  · show V m c main_v11 (((cfg0.win 2).blk t).view.emb (ix3 (0 : Fin 1) (y 1) (0 : Fin 1))) = _
    refine congrArg (V m c main_v11) (funext fun a => Fin.ext ?_)
    match a with
    | ⟨0, _⟩ => show win0_2.index t (0 : Fin 3) * 1 + 1 * 0 = win0_3.index t (0 : Fin 3) * 1 + 1 * (y 0).val; omega
    | ⟨1, _⟩ => show win0_2.index t (1 : Fin 3) * 64 + 1 * (y 1).val = win0_3.index t (1 : Fin 3) * 64 + 1 * (y 1).val; omega
    | ⟨2, _⟩ => show win0_2.index t (2 : Fin 3) * 1 + 1 * 0 = 0; omega
  · have hk : k.val < 3 := k.isLt
    show V m c main_v5 (((cfg0.win 1).blk t).view.emb (ix3 (0 : Fin 1) (y 1) k)) = _
    refine congrArg (V m c main_v5) (funext fun a => Fin.ext ?_)
    match a with
    | ⟨0, _⟩ => show win0_1.index t (0 : Fin 3) * 1 + 1 * 0 = win0_3.index t (0 : Fin 3) * 1 + 1 * (y 0).val; omega
    | ⟨1, _⟩ => show win0_1.index t (1 : Fin 3) * 64 + 1 * (y 1).val = win0_3.index t (1 : Fin 3) * 64 + 1 * (y 1).val; omega
    | ⟨2, _⟩ => show win0_1.index t (2 : Fin 3) * 3 + 1 * k.val = k.val; omega
  · have hq : q.val < 16384 := q.isLt
    show V m c main_arg0 (((cfg0.win 0).blk t).view.emb (ix3 (0 : Fin 1) (y 1) q)) = _
    refine congrArg (V m c main_arg0) (funext fun a => Fin.ext ?_)
    match a with
    | ⟨0, _⟩ => show win0_0.index t (0 : Fin 3) * 1 + 1 * 0 = win0_3.index t (0 : Fin 3) * 1 + 1 * (y 0).val; omega
    | ⟨1, _⟩ => show win0_0.index t (1 : Fin 3) * 64 + 1 * (y 1).val = win0_3.index t (1 : Fin 3) * 64 + 1 * (y 1).val; omega
    | ⟨2, _⟩ => show win0_0.index t (2 : Fin 3) * 16384 + 1 * q.val = q.val; omega
  · refine Fin.ext ?_
    show (y 2).val = win0_3.index t (2 : Fin 3) * 16384 + 1 * (y 2).val
    omega

/-- An index of the output array is in point `t`'s block iff each coordinate is in the block's range. -/
theorem mem_blk (t : Fin cfg0.N) (i : S16x256x16384.Idx) :
    i ∈ ((cfg0.win 3).blk t).view.set ↔ ∀ a : Fin 3, win0_3.index t a * S1x64x16384.size a ≤ (i a).val
      ∧ (i a).val < win0_3.index t a * S1x64x16384.size a + S1x64x16384.size a := by
  show i ∈ ((View.whole main_v12).slice (win0_3.rect t)).set ↔ _
  rw [View.set_slice_whole, Rect.mem_set_unit]
  exact Iff.rfl

/-- The blocks fill the output: index `(s, f, l)` is in the block of point `(s, f / 64)`. -/
theorem cover (i : S16x256x16384.Idx) :
    ∃ t : Fin cfg0.N, (cfg0.win 3).flush t = true ∧ i ∈ ((cfg0.win 3).blk t).view.set := by
  have hi0 : (i 0).val < 16 := (i 0).isLt
  have hi1 : (i 1).val < 256 := (i 1).isLt
  have hi2 : (i 2).val < 16384 := (i 2).isLt
  obtain ⟨t, ht⟩ := idx_onto ⟨(i 0).val, hi0⟩ ⟨(i 1).val / 64, by omega⟩
  have q0 : win0_3.index t (0 : Fin 3) = (i 0).val := congrFun ht 0
  have q1 : win0_3.index t (1 : Fin 3) = (i 1).val / 64 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 16384 ≤ (i 2).val ∧ (i 2).val < win0_3.index t (2 : Fin 3) * 16384 + 16384; omega

/-- The output array after the run: the convolution of the arrays as the region finds them. -/
theorem final (c : Dev nD) :
    (dats m 0 c).arrAt 3 cfg0.N = convOut (V m c main_arg0) (V m c main_v5) (V m c main_v11) :=
  (dats m 0 c).arrAt_eq_of_cover 3 _ (fun t _ => flushed_eq m c t) cover

end Cert.Conv

end
-- ==== Proof.ConvHost.lean ====
/-
  What the region finds in its tap and bias windows.

  Before the region the program computes, from the other five arguments, the taps `emb · Wwᵀ + bw` laid out as
  [16, 256, 3] and the biases `emb · Wbᵀ + bb` laid out as a column [16, 256, 1].  The reference computes the same two
  arrays by the same operations, except that it makes the column by a broadcast where this program reshapes: both put
  entry `(s, f)` of the [16, 256] array at `(s, f, 0)`.
-/
import proofs.«426347_j66236985639121_4_alg».proof.Proof.Gen.KernelIdeal.Frame
import proofs.«426347_j66236985639121_4_alg».proof.Proof.Gen.ReferenceIdeal.Read
import Idealize.ShloMosaic.Lib.StableHlo.Run
import Idealize.ShloMosaic.Lib.ValueIdx
import Idealize.ShloMosaic.PureOps.Ideal

noncomputable section

namespace Cert.Conv

open Idealize.ShloMosaic Idealize.ShloMosaic.TcCoe Idealize.ShloMosaic.ValueIdx Idealize.SL.Sem
open Idealize.ShloMosaic.StableHlo
open Cert.KernelIdeal Cert.KernelIdeal.Gen Cert.KernelIdeal.Facts₀

variable (m : (ℓ : Loc nD τ sig) → Buf (Elt Ideal) ℓ)

/-- The taps the region finds are the reference's tap array of the same arguments. -/
theorem taps_eq (c : Dev nD) :
    (V m c main_v5 : S16x256x3.Idx → EReal)
      = Cert.ReferenceIdeal.Read.val_main_v5 (F := Ideal) (m ((c : Thread nD τ).loc main_arg1))
          (m ((c : Thread nD τ).loc main_arg2)) (m ((c : Thread nD τ).loc main_arg3)) := by
  dsimp only [V, hostOps0]
  after_results
  rfl

/-- The bias column the region finds is the reshaped [16, 256] array of biases. -/
theorem bias_reshaped (c : Dev nD) :
    (V m c main_v11 : S16x256x1.Idx → EReal)
      = shapeCast S16x256x1 (Cert.ReferenceIdeal.Read.val_main_v10 (F := Ideal) (m ((c : Thread nD τ).loc main_arg1))
          (m ((c : Thread nD τ).loc main_arg4)) (m ((c : Thread nD τ).loc main_arg5))) Facts₀.shapeCasts_S16x256_S16x256x1 := by
  dsimp only [V, hostOps0]
  after_results
  rfl

/-- … which is the reference's bias column: a reshape and a broadcast to a trailing unit axis read the same entry. -/
theorem bias_eq (c : Dev nD) :
    (V m c main_v11 : S16x256x1.Idx → EReal)
      = Cert.ReferenceIdeal.Read.val_main_v12 (F := Ideal) (m ((c : Thread nD τ).loc main_arg1))
          (m ((c : Thread nD τ).loc main_arg4)) (m ((c : Thread nD τ).loc main_arg5)) := by
  rw [bias_reshaped]
  funext j
  obtain ⟨s, f, z, rfl⟩ : ∃ (s : Fin 16) (f : Fin 256) (z : Fin 1), j = ix3 s f z := ⟨j 0, j 1, j 2, eq_ix3 j⟩
  have hz : z.val < 1 := z.isLt
  rw [Cert.ReferenceIdeal.Read.val_main_v12_apply]
  refine (shapeCast_apply _ _ (ix3 s f z) (ix2 s f) ?_).trans (congrArg _ ?_)
  · rw [Shape.rowMajor_val_two, Shape.rowMajor_val_three]
    show s.val * 256 + f.val = (s.val * 256 + f.val) * 1 + z.val
    omega
  · exact funext fun a => by match a with | ⟨0, _⟩ => rfl | ⟨1, _⟩ => rfl

end Cert.Conv

end
-- ==== Proof.ConvRef.lean ====
/-
  The reference computes the convolution with zero-padded neighbours.

  It puts one zero in front of and one behind every row of `h` (a row of 16386 entries), cuts the three windows of
  16384 entries that start at entries 0, 1 and 2 of the padded row, multiplies window `k` by tap `k` and adds the three
  products to the bias, in that order.  Entry `l` of window 0 is the row's entry `l - 1`, or the zero in front for
  `l = 0`; entry `l` of window 1 is the row's entry `l`; entry `l` of window 2 is the row's entry `l + 1`, or the zero
  behind for `l = 16383`.  So the result is `convOut` of `h`, the taps and the bias column (`padded_eq_rowOut`).
-/
import proofs.«426347_j66236985639121_4_alg».proof.Proof.Gen.ReferenceIdeal.Read
import proofs.«426347_j66236985639121_4_alg».proof.Proof.ConvSpec
import Idealize.ShloMosaic.Lib.KernelVsHost

noncomputable section

namespace Cert.Conv.Ref

open Idealize.ShloMosaic Idealize.ShloMosaic.ValueIdx
open Cert.ReferenceIdeal Cert.ReferenceIdeal.Gen Cert.ReferenceIdeal.Read Cert.ReferenceIdeal.Facts₀
open Cert.Conv

/-- The padding value is the integer zero converted: the real number zero. -/
theorem padval (i : S_.Idx) : val_main_call0_v0 (F := Ideal) i = 0 := by
  rw [val_main_call0_v0_apply, val_main_c_apply]
  show (((0#32 : BitVec 32).toInt : ℝ) : EReal) = 0
  simp

/-- Window 0 of the padded row: the entry before, the zero in front at lane 0. -/
theorem front_apply (x0 : (⟨S16x256x16384, .f32⟩ : BufTy).Contents (Elt Ideal)) (s : Fin 16) (f : Fin 256) (l : Fin 16384) :
    val_main_v14 (F := Ideal) x0 (ix3 s f l) = if l.val = 0 then 0 else x0 (ix3 s f (prv l)) := by
  rw [val_main_v14_apply]
  unfold val_main_v11
  by_cases hl : l.val = 0
  · rw [if_pos hl]
    refine (pad_apply_of_not_inside _ _ _ _ _ _ _ (idx_main_v14 (ix3 s f l)) (2 : Fin 3) ?_).trans (padval _)
    intro h
    have h1 : 1 ≤ l.val := h.1
    omega
  · rw [if_neg hl]
    refine pad_apply_of_inside _ _ _ _ _ _ _ (idx_main_v14 (ix3 s f l)) (ix3 s f (prv l)) (fun a => ?_)
    match a with
    | ⟨0, _⟩ => show s.val = 0 + s.val * (0 + 1); omega
    | ⟨1, _⟩ => show f.val = 0 + f.val * (0 + 1); omega
    | ⟨2, _⟩ => show l.val = 1 + ((l.val + 16383) % 16384) * (0 + 1); omega

/-- Window 1 of the padded row: the entry itself. -/
theorem mid_apply (x0 : (⟨S16x256x16384, .f32⟩ : BufTy).Contents (Elt Ideal)) (s : Fin 16) (f : Fin 256) (l : Fin 16384) :
    val_main_v20 (F := Ideal) x0 (ix3 s f l) = x0 (ix3 s f l) := by
  rw [val_main_v20_apply]
  unfold val_main_v11
  refine pad_apply_of_inside _ _ _ _ _ _ _ (idx_main_v20 (ix3 s f l)) (ix3 s f l) (fun a => ?_)
  match a with
  | ⟨0, _⟩ => show s.val = 0 + s.val * (0 + 1); omega
  | ⟨1, _⟩ => show f.val = 0 + f.val * (0 + 1); omega
  | ⟨2, _⟩ => show 1 + l.val = 1 + l.val * (0 + 1); omega

/-- Window 2 of the padded row: the entry after, the zero behind at lane 16383. -/
theorem back_apply (x0 : (⟨S16x256x16384, .f32⟩ : BufTy).Contents (Elt Ideal)) (s : Fin 16) (f : Fin 256) (l : Fin 16384) :
    val_main_v25 (F := Ideal) x0 (ix3 s f l) = if l.val = 16383 then 0 else x0 (ix3 s f (nxt l)) := by
  rw [val_main_v25_apply]
  unfold val_main_v11
  have hlt : l.val < 16384 := l.isLt
  by_cases hl : l.val = 16383
  · rw [if_pos hl]
    refine (pad_apply_of_not_inside _ _ _ _ _ _ _ (idx_main_v25 (ix3 s f l)) (2 : Fin 3) ?_).trans (padval _)
    intro h
    have h3 : (2 + l.val - 1) / (0 + 1) < 16384 := h.2.2
    omega
  · rw [if_neg hl]
    refine pad_apply_of_inside _ _ _ _ _ _ _ (idx_main_v25 (ix3 s f l)) (ix3 s f (nxt l)) (fun a => ?_)
    match a with
    | ⟨0, _⟩ => show s.val = 0 + s.val * (0 + 1); omega
    | ⟨1, _⟩ => show f.val = 0 + f.val * (0 + 1); omega
    | ⟨2, _⟩ => show 2 + l.val = 1 + ((l.val + 1) % 16384) * (0 + 1); omega

/-- Where each broadcast and tap slice reads its operand. -/
theorem bias_idx (s : Fin 16) (f : Fin 256) (l : Fin 16384) : idx_main_v17 (ix3 s f l) = ix3 s f (0 : Fin 1) :=
  funext fun a => by match a with | ⟨0, _⟩ => rfl | ⟨1, _⟩ => rfl | ⟨2, _⟩ => rfl
theorem tap0_idx (s : Fin 16) (f : Fin 256) (l : Fin 16384) : idx_main_v13 (idx_main_v15 (ix3 s f l)) = ix3 s f k0 :=
  funext fun a => by match a with | ⟨0, _⟩ => rfl | ⟨1, _⟩ => rfl | ⟨2, _⟩ => rfl
theorem tap1_idx (s : Fin 16) (f : Fin 256) (l : Fin 16384) : idx_main_v19 (idx_main_v21 (ix3 s f l)) = ix3 s f k1 :=
  funext fun a => by match a with | ⟨0, _⟩ => rfl | ⟨1, _⟩ => rfl | ⟨2, _⟩ => rfl
theorem tap2_idx (s : Fin 16) (f : Fin 256) (l : Fin 16384) : idx_main_v24 (idx_main_v26 (ix3 s f l)) = ix3 s f k2 :=
  funext fun a => by match a with | ⟨0, _⟩ => rfl | ⟨1, _⟩ => rfl | ⟨2, _⟩ => rfl

/-- The reference's result is the convolution of its first argument with the taps and the bias column its other
    arguments give. -/
theorem result_eq (x0 : (⟨S16x256x16384, .f32⟩ : BufTy).Contents (Elt Ideal)) (x1 : (⟨S16x128, .f32⟩ : BufTy).Contents (Elt Ideal))
    (x2 : (⟨S768x128, .f32⟩ : BufTy).Contents (Elt Ideal)) (x3 : (⟨S768, .f32⟩ : BufTy).Contents (Elt Ideal))
    (x4 : (⟨S256x128, .f32⟩ : BufTy).Contents (Elt Ideal)) (x5 : (⟨S256, .f32⟩ : BufTy).Contents (Elt Ideal)) :
    val_main_v28 (F := Ideal) x0 x1 x2 x3 x4 x5
      = convOut x0 (val_main_v5 (F := Ideal) x1 x2 x3) (val_main_v12 (F := Ideal) x1 x4 x5) := by
  funext j
  obtain ⟨s, f, l, rfl⟩ : ∃ (s : Fin 16) (f : Fin 256) (l : Fin 16384), j = ix3 s f l := ⟨j 0, j 1, j 2, eq_ix3 j⟩
  rw [val_main_v28_apply, val_main_v23_apply, val_main_v18_apply, val_main_v17_apply, val_main_v16_apply,
    val_main_v15_apply, val_main_v13_apply, val_main_v22_apply, val_main_v21_apply, val_main_v19_apply,
    val_main_v27_apply, val_main_v26_apply, val_main_v24_apply,
    bias_idx, tap0_idx, tap1_idx, tap2_idx, front_apply, mid_apply, back_apply]
  exact padded_eq_rowOut (val_main_v12 (F := Ideal) x1 x4 x5 (ix3 s f (0 : Fin 1)))
    (fun k => val_main_v5 (F := Ideal) x1 x2 x3 (ix3 s f k)) (fun l' => x0 (ix3 s f l')) l _ _ _ rfl rfl rfl

end Cert.Conv.Ref

end
-- ==== Proof.lean ====
/-
  A per-sample depthwise convolution with three taps, against its zero-padded definition.

  Both programs first compute, from `emb`, `Ww`, `bw`, `Wb`, `bb`, a triple of taps `w s f ·` and a bias `b s f` for every
  row `(s, f)` of `h` (shape [16, 256, 16384]); then

      out s f l = ((b s f + w s f 0 * h s f (l-1)) + w s f 1 * h s f l) + w s f 2 * h s f (l+1),

  a neighbour off either end of the row counting as zero.  The reference pads every row with a zero at each end and adds
  three shifted products.  The kernel works on blocks of 64 rows: it rotates the block by one lane in either direction,
  forms the same sum with the rotated neighbours, and then overwrites the two end lanes of every row, where the rotation
  wrapped, with the sum that leaves the missing neighbour out.  On the extended reals a product with zero is zero and
  adding zero changes nothing, so the two agree at the ends too, for every input: no finiteness is used.

  The modules: ConvSpec (the function, and that the padded sum is it), ConvLayout and ConvPayload (the body's three
  stored values at an index), ConvBlock (the three overlapping stores read back), ConvArray (the 64 blocks fill the
  output), ConvHost (taps and biases as the region finds them), ConvRef (the reference's result is the function).
-/
import proofs.«426347_j66236985639121_4_alg».proof.Defs
import proofs.«426347_j66236985639121_4_alg».proof.Proof.Gen.Kernel
import proofs.«426347_j66236985639121_4_alg».proof.Proof.Gen.Kernel.Skeleton
import proofs.«426347_j66236985639121_4_alg».proof.Proof.Gen.Kernel.Launch
import proofs.«426347_j66236985639121_4_alg».proof.Proof.Gen.Kernel.Points
import proofs.«426347_j66236985639121_4_alg».proof.Proof.Gen.Kernel.Frame
import proofs.«426347_j66236985639121_4_alg».proof.Proof.Gen.KernelIdeal
import proofs.«426347_j66236985639121_4_alg».proof.Proof.Gen.KernelIdeal.Skeleton
import proofs.«426347_j66236985639121_4_alg».proof.Proof.Gen.KernelIdeal.Launch
import proofs.«426347_j66236985639121_4_alg».proof.Proof.Gen.KernelIdeal.Points
import proofs.«426347_j66236985639121_4_alg».proof.Proof.Gen.KernelIdeal.Frame
import proofs.«426347_j66236985639121_4_alg».proof.Proof.Gen.ReferenceIdeal
import proofs.«426347_j66236985639121_4_alg».proof.Proof.Gen.Pre_finite_inputs
import proofs.«426347_j66236985639121_4_alg».proof.Proof.Gen.KernelIdeal.Value
import proofs.«426347_j66236985639121_4_alg».proof.Proof.Gen.ReferenceIdeal.Run
import proofs.«426347_j66236985639121_4_alg».proof.Proof.Gen.ReferenceIdeal.Read
import proofs.«426347_j66236985639121_4_alg».proof.Proof.ConvArray
import proofs.«426347_j66236985639121_4_alg».proof.Proof.ConvHost
import proofs.«426347_j66236985639121_4_alg».proof.Proof.ConvRef
import Idealize.ShloMosaic.Adequacy
import Idealize.ShloMosaic.Init

noncomputable section

namespace Cert.Proof

open Idealize.ShloMosaic Idealize.ShloMosaic.TcCoe Idealize.SL.Sem

/-- The three frames: the two kernels' are the generated frame certificates, the reference's is its generated run with
    the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's output array after the run is the convolution of its first argument with the taps and the bias
    column of the other five. -/
theorem kernel_out (m : (ℓ : Loc Cert.KernelIdeal.nD Cert.KernelIdeal.τ Cert.KernelIdeal.sig) → Buf (Elt Ideal) ℓ)
    (c : Dev Cert.KernelIdeal.nD) :
    (Cert.KernelIdeal.Gen.dats m 0 c).arrAt 3 Cert.KernelIdeal.cfg0.N
      = Cert.Conv.convOut (m ((c.tc : Thread Cert.KernelIdeal.nD Cert.KernelIdeal.τ).loc Cert.KernelIdeal.main_arg0))
          (Cert.ReferenceIdeal.Read.val_main_v5 (F := Ideal)
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3)))
          (Cert.ReferenceIdeal.Read.val_main_v12 (F := Ideal)
            (m ((c.tc : Thread Cert.KernelIdeal.nD Cert.KernelIdeal.τ).loc Cert.KernelIdeal.main_arg1))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))) := by
  rw [Cert.Conv.final m c, Cert.KernelIdeal.Gen.V_main_arg0 m c, Cert.Conv.taps_eq m c, Cert.Conv.bias_eq m c]

/-- Both programs, from memories that agree on the arguments, end with that array. -/
theorem algebraic : Cert.algebraic_KernelIdeal_ReferenceIdeal := by
  intro m ρ m' ρ' _ hagree
  refine ⟨fun c => Cert.Conv.convOut (m ((c.tc : Thread Cert.KernelIdeal.nD Cert.KernelIdeal.τ).loc Cert.KernelIdeal.main_arg0))
      (Cert.ReferenceIdeal.Read.val_main_v5 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (Cert.ReferenceIdeal.Read.val_main_v12 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))), ?_, ?_⟩
  · exact (θ_run Cert.KernelIdeal.defs _ _).mono (fun r h c => ⟨(h c).1.trans (kernel_out m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, Cert.Conv.Ref.result_eq, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
